-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S100000 : Shape := ⟨1, ![100000]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64x64 .f32) (main_arg3 : FVec F S64 .f32) (main_arg4 : FVec F S64x64 .f32) (main_arg5 : FVec F S64x64 .f32) (main_arg6 : FVec F S64 .f32) (main_arg7 : IVec S100000 32) (main_arg8 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S100000 : Shape := ⟨1, ![100000]⟩
abbrev S2x1600000 : Shape := ⟨2, ![2, 1600000]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1605632x64 : Shape := ⟨2, ![1605632, 64]⟩
abbrev S1605632x1 : Shape := ⟨2, ![1605632, 1]⟩
abbrev S8192x64 : Shape := ⟨2, ![8192, 64]⟩
abbrev S8192x1 : Shape := ⟨2, ![8192, 1]⟩
abbrev S8192 : Shape := ⟨1, ![8192]⟩

abbrev nBuf : Space → Nat
  | .hbm => 115
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S2x1600000, .i32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S100000x64, .f32⟩
  | .hbm, ⟨51, _⟩ => ⟨S1x1600000, .i32⟩
  | .hbm, ⟨52, _⟩ => ⟨S1600000, .i32⟩
  | .hbm, ⟨53, _⟩ => ⟨S1x1600000, .i32⟩
  | .hbm, ⟨54, _⟩ => ⟨S1600000, .i32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S64x64, .f32⟩
  | .hbm, ⟨82, _⟩ => ⟨S1x64, .f32⟩
  | .hbm, ⟨83, _⟩ => ⟨S100000x64, .f32⟩
  | .hbm, ⟨84, _⟩ => ⟨S1x1600000, .i32⟩
  | .hbm, ⟨85, _⟩ => ⟨S1600000, .i32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1x1600000, .i32⟩
  | .hbm, ⟨96, _⟩ => ⟨S1600000, .i32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S_, .i32⟩
  | .hbm, ⟨107, _⟩ => ⟨S_, .f32⟩
  | .hbm, ⟨108, _⟩ => ⟨S1605632x64, .f32⟩
  | .hbm, ⟨109, _⟩ => ⟨S_, .i32⟩
  | .hbm, ⟨110, _⟩ => ⟨S_, .f32⟩
  | .hbm, ⟨111, _⟩ => ⟨S1605632x64, .f32⟩
  | .hbm, ⟨112, _⟩ => ⟨S1605632x1, .f32⟩
  | .hbm, ⟨113, _⟩ => ⟨S1600000x1, .f32⟩
  | .hbm, ⟨114, _⟩ => ⟨S1600000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192x1, .f32⟩
  | .local _ .vmem, ⟨23, _⟩ => ⟨S8192x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_call0_v0 : Ref sig .tc := ⟨.hbm, 107, rfl⟩
abbrev main_v79 : Ref sig .tc := ⟨.hbm, 108, rfl⟩
abbrev main_c_17 : Ref sig .tc := ⟨.hbm, 109, rfl⟩
abbrev main_call1_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![196], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  pads_S1600000x64_S1605632x64_056320_000 : S1600000x64.Pads (![0, 0] : Fin 2 → Nat) ![5632, 0] ![0, 0] S1605632x64
  h_S_ : 0 < S_.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  slices_S1605632x1_S1600000x1_0_0 : S1605632x1.Slices ![0, 0] S1600000x1
  shapeCasts_S1600000x1_S1600000 : S1600000x1.ShapeCasts S1600000
  gather_S100000x64_S100000x1_S100000x64_1_0_n_n_0_1_164_wf : GatherDims.WF S100000x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1605632x64.size a
  hwx2_0 : ∀ i : grid2.Coords, EltTy.bits .f32 = 32 ∨ (Rect.block (s := S1605632x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1605632x64.size a
  hwx2_1 : ∀ i : grid2.Coords, EltTy.bits .f32 = 32 ∨ (Rect.block (s := S1605632x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x1.size a ≤ S1605632x1.size a
  hwx2_2 : ∀ i : grid2.Coords, EltTy.bits .f32 = 32 ∨ (Rect.block (s := S1605632x1) S8192x1.size (cc2_transform_2 i) (hinb2_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v56) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v79) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v81) S8192x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S100000 : Shape := ⟨1, ![100000]⟩
abbrev S2x1600000 : Shape := ⟨2, ![2, 1600000]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S2x1600000, .i32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S1x1600000, .i32⟩
  | .hbm, ⟨59, _⟩ => ⟨S1600000, .i32⟩
  | .hbm, ⟨60, _⟩ => ⟨S1x1600000, .i32⟩
  | .hbm, ⟨61, _⟩ => ⟨S1600000, .i32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S_, .f32⟩
  | .hbm, ⟨76, _⟩ => ⟨S1600000, .f32⟩
  | .hbm, ⟨77, _⟩ => ⟨S_, .f32⟩
  | .hbm, ⟨78, _⟩ => ⟨S100000, .f32⟩
  | .hbm, ⟨79, _⟩ => ⟨S1600000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S64x64, .f32⟩
  | .hbm, ⟨88, _⟩ => ⟨S100000x64, .f32⟩
  | .hbm, ⟨89, _⟩ => ⟨S64x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x1600000, .i32⟩
  | .hbm, ⟨96, _⟩ => ⟨S1600000, .i32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1x1600000, .i32⟩
  | .hbm, ⟨107, _⟩ => ⟨S1600000, .i32⟩
  | .hbm, ⟨108, _⟩ => ⟨S_, .i32⟩
  | .hbm, ⟨109, _⟩ => ⟨S1600000, .i32⟩
  | .hbm, ⟨110, _⟩ => ⟨S1600000, .i1⟩
  | .hbm, ⟨111, _⟩ => ⟨S_, .i32⟩
  | .hbm, ⟨112, _⟩ => ⟨S1600000, .i32⟩
  | .hbm, ⟨113, _⟩ => ⟨S1600000, .i32⟩
  | .hbm, ⟨114, _⟩ => ⟨S1600000, .i32⟩
  | .hbm, ⟨115, _⟩ => ⟨S1600000x1, .i32⟩
  | .hbm, ⟨116, _⟩ => ⟨S1600000x64, .f32⟩
  | .hbm, ⟨117, _⟩ => ⟨S1600000x64, .f32⟩
  | .hbm, ⟨118, _⟩ => ⟨S_, .f32⟩
  | .hbm, ⟨119, _⟩ => ⟨S1600000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call0_cst : Ref sig .tc := ⟨.hbm, 55, rfl⟩
abbrev main_call0_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_14 : Ref sig .tc := ⟨.hbm, 108, rfl⟩
abbrev main_v81 : Ref sig .tc := ⟨.hbm, 109, rfl⟩
abbrev main_v82 : Ref sig .tc := ⟨.hbm, 110, rfl⟩
abbrev main_c_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  gather_S100000x64_S100000x1_S100000x64_1_0_n_n_0_1_164_wf : GatherDims.WF S100000x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Stage.lean ====
/-
  The stages of the network, as functions of whole arrays.

  Both programs compute: node features `x = emb[node_id]`; twice a SAGE layer
  `h' = mean_{j → i} h_j · Wlᵀ + h · Wrᵀ + b` (the first followed by `max · 0`); then for every edge the inner
  product of its two endpoints' rows. Everything except the dense part of a layer and the final row product is the
  same chain of host operations in both programs: an index wrap (a negative index counts from the end), row gathers,
  the scatter-add of the messages and of ones (the degree), the quotient by `max degree 1`. Those chains are named
  here once, so that the two sides are compared stage by stage and a shared stage is never opened.
-/
import proofs.«177141_j60773787238404_1_alg».proof.Proof.Gen.ReferenceIdeal

noncomputable section

namespace Cert.Stage

open Idealize.ShloMosaic Cert.ReferenceIdeal Cert.ReferenceIdeal.Gen

variable {F : FTy → Type} [FloatOps F]

/-- Row `r` of the edge list `[2, E]` as a vector of `E` node indices (`r = 0`: sources, `r = 1`: targets). -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A negative node index counts from the end: `i < 0 ↦ i + 100000`, per edge. -/
def wrapE (i : (⟨S1600000, .i32⟩ : BufTy).Contents (Elt F)) : (⟨S1600000, .i32⟩ : BufTy).Contents (Elt F) :=
  select (cmpi .slt i (broadcastInDim S1600000 ![] bcast_S_S1600000 (constantI S_ 32 0#32))) (addi i (broadcastInDim S1600000 ![] bcast_S_S1600000 (constantI S_ 32 100000#32))) i
/-- The same per node. -/
def wrapN (i : (⟨S100000, .i32⟩ : BufTy).Contents (Elt F)) : (⟨S100000, .i32⟩ : BufTy).Contents (Elt F) :=
  select (cmpi .slt i (broadcastInDim S100000 ![] bcast_S_S100000 (constantI S_ 32 0#32))) (addi i (broadcastInDim S100000 ![] bcast_S_S100000 (constantI S_ 32 100000#32))) i

/-- The embedding lookup `emb[node_id]`. -/
def lookup (emb : (⟨S100000x64, .f32⟩ : BufTy).Contents (Elt F)) (nid : (⟨S100000, .i32⟩ : BufTy).Contents (Elt F)) :
    (⟨S100000x64, .f32⟩ : BufTy).Contents (Elt F) :=
  Host.gather gather_S100000x64_S100000x1_S100000x64_1_0_n_n_0_1_164 emb (broadcastInDim S100000x1 ![0] bcast_S100000_S100000x1_0 (wrapN nid))

/-- The rows `h[i]` of a node array at a vector `i` of `E` node indices. -/
def rows (h : (⟨S100000x64, .f32⟩ : BufTy).Contents (Elt F)) (i : (⟨S1600000, .i32⟩ : BufTy).Contents (Elt F)) :
    (⟨S1600000x64, .f32⟩ : BufTy).Contents (Elt F) :=
  Host.gather gather_S100000x64_S1600000x1_S1600000x64_1_0_n_n_0_1_164 h (broadcastInDim S1600000x1 ![0] bcast_S1600000_S1600000x1_0 (wrapE i))

/-- `max (in-degree) 1` of every node: ones scattered-added at the edges' targets. -/
def deg (ei : (⟨S2x1600000, .i32⟩ : BufTy).Contents (Elt F)) : (⟨S100000, .f32⟩ : BufTy).Contents (Elt F) :=
  maximumf (Host.scatterAdd scatter_S100000_S1600000x1_S1600000_n_0_0_1 (broadcastInDim S100000 ![] bcast_S_S100000 (constant S_ .f32 0x00000000#32)) (broadcastInDim S1600000x1 ![0] bcast_S1600000_S1600000x1_0 (dstOf ei)) (broadcastInDim S1600000 ![] bcast_S_S1600000 (constant S_ .f32 0x3F800000#32))) (broadcastInDim S100000 ![] bcast_S_S100000 (constant S_ .f32 0x3F800000#32))

/-- The mean of the incoming neighbours' rows: the sources' rows scatter-added at the targets, over `max degree 1`. -/
def agg (h : (⟨S100000x64, .f32⟩ : BufTy).Contents (Elt F)) (ei : (⟨S2x1600000, .i32⟩ : BufTy).Contents (Elt F)) :
    (⟨S100000x64, .f32⟩ : BufTy).Contents (Elt F) :=
  Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (dstOf ei)) (rows h (srcOf ei))) (broadcastInDim S100000x64 ![0, 1] bcast_S100000x1_S100000x64_0_1 (broadcastInDim S100000x1 ![0] bcast_S100000_S100000x1_0 (deg ei)))

/-- A weight matrix transposed, and a bias as one row. -/
def tr (w : (⟨S64x64, .f32⟩ : BufTy).Contents (Elt F)) : (⟨S64x64, .f32⟩ : BufTy).Contents (Elt F) :=
  transpose S64x64 [1, 0] w transposes_S64x64_S64x64_1_0
def brow (b : (⟨S64, .f32⟩ : BufTy).Contents (Elt F)) : (⟨S1x64, .f32⟩ : BufTy).Contents (Elt F) :=
  broadcastInDim S1x64 ![1] bcast_S64_S1x64_1 b

/-- The dense part of a layer, over weights already transposed (`[in, out]`) and the bias as a row:
    `a · wl + h · wr + b`, the two matrix products summed first. -/
def layer (a h : (⟨S100000x64, .f32⟩ : BufTy).Contents (Elt F)) (wl wr : (⟨S64x64, .f32⟩ : BufTy).Contents (Elt F))
    (b : (⟨S1x64, .f32⟩ : BufTy).Contents (Elt F)) : (⟨S100000x64, .f32⟩ : BufTy).Contents (Elt F) :=
  addf (addf (Host.dotGeneral dot_S100000x64_S64x64_S100000x64_1_0_0_1_n_n none a wl) (Host.dotGeneral dot_S100000x64_S64x64_S100000x64_1_0_0_1_n_n none h wr)) (broadcastInDim S100000x64 ![0, 1] bcast_S1x64_S100000x64_0_1 b)

/-- `max · 0`, entry by entry. -/
def relu (v : (⟨S100000x64, .f32⟩ : BufTy).Contents (Elt F)) : (⟨S100000x64, .f32⟩ : BufTy).Contents (Elt F) :=
  maximumf v (broadcastInDim S100000x64 ![] bcast_S_S100000x64 (constant S_ .f32 0x00000000#32))

/-- The per-edge score: the sum over the 64 features of the product of two row arrays. -/
def score (e1 e2 : (⟨S1600000x64, .f32⟩ : BufTy).Contents (Elt F)) : (⟨S1600000, .f32⟩ : BufTy).Contents (Elt F) :=
  Host.reduceAdd (mulf e1 e2) (constant S_ .f32 0x00000000#32) reducesTo_S1600000x64_S1600000_d1 h_S_

/-- The first layer's output (after `max · 0`) and the second's, of the arguments. -/
def h1 (emb : (⟨S100000x64, .f32⟩ : BufTy).Contents (Elt F)) (wl1 wr1 : (⟨S64x64, .f32⟩ : BufTy).Contents (Elt F))
    (b1 : (⟨S1x64, .f32⟩ : BufTy).Contents (Elt F)) (nid : (⟨S100000, .i32⟩ : BufTy).Contents (Elt F))
    (ei : (⟨S2x1600000, .i32⟩ : BufTy).Contents (Elt F)) : (⟨S100000x64, .f32⟩ : BufTy).Contents (Elt F) :=
  relu (layer (agg (lookup emb nid) ei) (lookup emb nid) (tr wl1) (tr wr1) b1)
def h2 (emb : (⟨S100000x64, .f32⟩ : BufTy).Contents (Elt F)) (wl1 wr1 : (⟨S64x64, .f32⟩ : BufTy).Contents (Elt F))
    (b1 : (⟨S1x64, .f32⟩ : BufTy).Contents (Elt F)) (wl2 wr2 : (⟨S64x64, .f32⟩ : BufTy).Contents (Elt F))
    (b2 : (⟨S1x64, .f32⟩ : BufTy).Contents (Elt F)) (nid : (⟨S100000, .i32⟩ : BufTy).Contents (Elt F))
    (ei : (⟨S2x1600000, .i32⟩ : BufTy).Contents (Elt F)) : (⟨S100000x64, .f32⟩ : BufTy).Contents (Elt F) :=
  layer (agg (h1 emb wl1 wr1 b1 nid ei) ei) (h1 emb wl1 wr1 b1 nid ei) (tr wl2) (tr wr2) b2

/-- The whole network: every edge's score from the second layer's rows at its two endpoints. -/
def out (emb : (⟨S100000x64, .f32⟩ : BufTy).Contents (Elt F)) (wl1 wr1 : (⟨S64x64, .f32⟩ : BufTy).Contents (Elt F))
    (b1 : (⟨S1x64, .f32⟩ : BufTy).Contents (Elt F)) (wl2 wr2 : (⟨S64x64, .f32⟩ : BufTy).Contents (Elt F))
    (b2 : (⟨S1x64, .f32⟩ : BufTy).Contents (Elt F)) (nid : (⟨S100000, .i32⟩ : BufTy).Contents (Elt F))
    (ei : (⟨S2x1600000, .i32⟩ : BufTy).Contents (Elt F)) : (⟨S1600000, .f32⟩ : BufTy).Contents (Elt F) :=
  score (rows (h2 emb wl1 wr1 b1 wl2 wr2 b2 nid ei) (srcOf ei)) (rows (h2 emb wl1 wr1 b1 wl2 wr2 b2 nid ei) (dstOf ei))

end Cert.Stage

end
-- ==== Proof.FoldHost.lean ====
/-
  The host stretches of the kernel's program, read as the network's stages.

  Between its three regions the kernel's program runs the same host operations as the reference: the embedding lookup
  and the neighbour mean before the first dense layer, the neighbour mean again before the second, the two endpoint
  gathers (padded below to a whole number of blocks) before the edge product, and the cut back to the edge count after
  it. Each stretch is read here from ANY contents `W` of the buffers at its start: what it leaves in each buffer a
  later region or stretch reads, and that it leaves alone the buffers it does not write.
-/
import proofs.«177141_j60773787238404_1_alg».proof.Proof.Gen.KernelIdeal.Frame
import proofs.«177141_j60773787238404_1_alg».proof.Proof.Stage

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-! ## Before region 0 -/

/-- The looked-up node features. -/
theorem stretch0_x (W : Valuation τ sig (Elt F)) :
    after (hostOps0 (F := F)) W (Proc.devRef .tc main_v6)
      = Cert.Stage.lookup (F := F) (W (Proc.devRef .tc main_arg0)) (W (Proc.devRef .tc main_arg7)) := by
  after_results_simp
  rfl
/-- Their neighbour mean. -/
theorem stretch0_agg (W : Valuation τ sig (Elt F)) :
    after (hostOps0 (F := F)) W (Proc.devRef .tc main_v29)
      = Cert.Stage.agg (F := F) (Cert.Stage.lookup (F := F) (W (Proc.devRef .tc main_arg0)) (W (Proc.devRef .tc main_arg7))) (W (Proc.devRef .tc main_arg8)) := by
  after_results_simp
  rfl
/-- The first layer's two weight matrices transposed and its bias as a row. -/
theorem stretch0_wl (W : Valuation τ sig (Elt F)) :
    after (hostOps0 (F := F)) W (Proc.devRef .tc main_v30) = Cert.Stage.tr (F := F) (W (Proc.devRef .tc main_arg1)) := by
  after_results_simp
  rfl
theorem stretch0_wr (W : Valuation τ sig (Elt F)) :
    after (hostOps0 (F := F)) W (Proc.devRef .tc main_v31) = Cert.Stage.tr (F := F) (W (Proc.devRef .tc main_arg2)) := by
  after_results_simp
  rfl
theorem stretch0_b (W : Valuation τ sig (Elt F)) :
    after (hostOps0 (F := F)) W (Proc.devRef .tc main_v32) = shapeCast S1x64 (W (Proc.devRef .tc main_arg3)) shapeCasts_S64_S1x64 := by
  after_results_simp
  rfl
/-- The stretch writes none of the arguments the later stretches read. -/
theorem stretch0_keep4 (W : Valuation τ sig (Elt F)) :
    after (hostOps0 (F := F)) W (Proc.devRef .tc main_arg4) = W (Proc.devRef .tc main_arg4) := by
  after_results_simp

theorem stretch0_keep5 (W : Valuation τ sig (Elt F)) :
    after (hostOps0 (F := F)) W (Proc.devRef .tc main_arg5) = W (Proc.devRef .tc main_arg5) := by
  after_results_simp

theorem stretch0_keep6 (W : Valuation τ sig (Elt F)) :
    after (hostOps0 (F := F)) W (Proc.devRef .tc main_arg6) = W (Proc.devRef .tc main_arg6) := by
  after_results_simp

theorem stretch0_keep8 (W : Valuation τ sig (Elt F)) :
    after (hostOps0 (F := F)) W (Proc.devRef .tc main_arg8) = W (Proc.devRef .tc main_arg8) := by
  after_results_simp

/-! ## Between regions 0 and 1 -/

/-- The neighbour mean of the first layer's output. -/
theorem stretch1_agg (W : Valuation τ sig (Elt F)) :
    after (hostOps1 (F := F)) W (Proc.devRef .tc main_v56)
      = Cert.Stage.agg (F := F) (W (Proc.devRef .tc main_v33)) (W (Proc.devRef .tc main_arg8)) := by
  after_results_simp
  rfl
/-- The second layer's two weight matrices transposed and its bias as a row. -/
theorem stretch1_wl (W : Valuation τ sig (Elt F)) :
    after (hostOps1 (F := F)) W (Proc.devRef .tc main_v57) = Cert.Stage.tr (F := F) (W (Proc.devRef .tc main_arg4)) := by
  after_results_simp
  rfl
theorem stretch1_wr (W : Valuation τ sig (Elt F)) :
    after (hostOps1 (F := F)) W (Proc.devRef .tc main_v58) = Cert.Stage.tr (F := F) (W (Proc.devRef .tc main_arg5)) := by
  after_results_simp
  rfl
theorem stretch1_b (W : Valuation τ sig (Elt F)) :
    after (hostOps1 (F := F)) W (Proc.devRef .tc main_v59) = shapeCast S1x64 (W (Proc.devRef .tc main_arg6)) shapeCasts_S64_S1x64 := by
  after_results_simp
  rfl
/-- The first layer's output and the edge list are left alone. -/
theorem stretch1_keep_h (W : Valuation τ sig (Elt F)) :
    after (hostOps1 (F := F)) W (Proc.devRef .tc main_v33) = W (Proc.devRef .tc main_v33) := by
  after_results_simp

theorem stretch1_keep8 (W : Valuation τ sig (Elt F)) :
    after (hostOps1 (F := F)) W (Proc.devRef .tc main_arg8) = W (Proc.devRef .tc main_arg8) := by
  after_results_simp

/-! ## Between regions 1 and 2 -/

/-- The second layer's rows at the edges' sources and at their targets. -/
theorem stretch2_src (W : Valuation τ sig (Elt F)) :
    after (hostOps2 (F := F)) W (Proc.devRef .tc main_v69)
      = Cert.Stage.rows (F := F) (W (Proc.devRef .tc main_v60)) (Cert.Stage.srcOf (F := F) (W (Proc.devRef .tc main_arg8))) := by
  after_results_simp
  rfl
theorem stretch2_dst (W : Valuation τ sig (Elt F)) :
    after (hostOps2 (F := F)) W (Proc.devRef .tc main_v78)
      = Cert.Stage.rows (F := F) (W (Proc.devRef .tc main_v60)) (Cert.Stage.dstOf (F := F) (W (Proc.devRef .tc main_arg8))) := by
  after_results_simp
  rfl
/-- The sources' rows padded below. -/
theorem stretch2_1_pad (W : Valuation τ sig (Elt F)) :
    after (hostOps2_1 (F := F)) W (Proc.devRef .tc main_v79)
      = pad S1605632x64 ![0, 0] ![5632, 0] ![0, 0] (W (Proc.devRef .tc main_v69)) (sitofp .f32 (W (Proc.devRef .tc main_c_16))) pads_S1600000x64_S1605632x64_056320_000 h_S_ := by
  after_results_simp
  rfl
theorem stretch2_1_keep (W : Valuation τ sig (Elt F)) :
    after (hostOps2_1 (F := F)) W (Proc.devRef .tc main_v78) = W (Proc.devRef .tc main_v78) := by
  after_results_simp

theorem stretch2_2_keep79 (W : Valuation τ sig (Elt F)) :
    after (hostOps2_2 (F := F)) W (Proc.devRef .tc main_v79) = W (Proc.devRef .tc main_v79) := by
  after_results_simp

theorem stretch2_2_keep78 (W : Valuation τ sig (Elt F)) :
    after (hostOps2_2 (F := F)) W (Proc.devRef .tc main_v78) = W (Proc.devRef .tc main_v78) := by
  after_results_simp

/-- The targets' rows padded below. -/
theorem stretch2_3_pad (W : Valuation τ sig (Elt F)) :
    after (hostOps2_3 (F := F)) W (Proc.devRef .tc main_v80)
      = pad S1605632x64 ![0, 0] ![5632, 0] ![0, 0] (W (Proc.devRef .tc main_v78)) (sitofp .f32 (W (Proc.devRef .tc main_c_17))) pads_S1600000x64_S1605632x64_056320_000 h_S_ := by
  after_results_simp
  rfl
theorem stretch2_3_keep (W : Valuation τ sig (Elt F)) :
    after (hostOps2_3 (F := F)) W (Proc.devRef .tc main_v79) = W (Proc.devRef .tc main_v79) := by
  after_results_simp

/-! ## After region 2 -/

/-- The product column cut back to the edge count and read as a vector. -/
theorem stretch3_out (W : Valuation τ sig (Elt F)) :
    after (hostOps3 (F := F)) W (Proc.devRef .tc main_v83)
      = shapeCast S1600000 (extractStridedSlice S1600000x1 ![0, 0] (W (Proc.devRef .tc main_v81)) slices_S1605632x1_S1600000x1_0_0) shapeCasts_S1600000x1_S1600000 := by
  after_results_simp
  rfl

end Cert.KernelIdeal.Fold

end
-- ==== Proof.Combine0.lean ====
/-
  Region 0 of the kernel's program is a dense layer.
-/
import proofs.«177141_j60773787238404_1_alg».proof.Proof.Gen.KernelIdeal.Frame
import proofs.«177141_j60773787238404_1_alg».proof.Proof.Stage
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Combine0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The zero offsets of a whole-block access, as the constant function. -/
theorem hz : (![0, 0] : Fin 2 → Nat) = fun _ => 0 := funext fun a => by
  match a with
  | ⟨0, _⟩ => rfl
  | ⟨1, _⟩ => rfl

/-! ## The block's matrix product at an index -/

theorem lhs_blk_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blk_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blk_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blk_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's product with a weight matrix into the zero accumulator, at row `p` and column `q`: the sum over the 64
    features of the row's entries times the column's. -/
theorem matmul_blk_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- The body's payload at row `p`, column `q` of the block. -/
theorem pay_apply (x0 x1 : Vec Ideal S10000x64 .f32) (x2 x3 : Vec Ideal S64x64 .f32) (x4 : Vec Ideal S1x64 .f32) (p : Fin 10000) (q : Fin 64) :
    k0_pay1 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q)) (Ideal.ofBits .f32 0x00000000#32) := by
  unfold k0_pay1
  simp only [shapeCast_self]
  rw [maximumf_apply, addf_apply, addf_apply, matmul_blk_apply, matmul_blk_apply, broadcastTo_1b_ab_apply]
  rfl

/-! ## The dense layer of whole arrays at an index -/

theorem lhs_arr_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_arr_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_arr_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_arr_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The product of a node array with a weight matrix, at node `i` and column `q`: the same sum over the 64 features. -/
theorem dot_arr_apply (l : FVec Ideal Cert.ReferenceIdeal.S100000x64 .f32) (r : FVec Ideal Cert.ReferenceIdeal.S64x64 .f32) (i : Fin 100000) (q : Fin 64) :
    Host.dotGeneral (F := Ideal) Cert.ReferenceIdeal.dot_S100000x64_S64x64_S100000x64_1_0_0_1_n_n none l r (ix2 i q)
      = ∑ k : Fin 64, l (ix2 i k) * r (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 i q) ((contrEquiv1 Cert.ReferenceIdeal.dot_S100000x64_S64x64_S100000x64_1_0_0_1_n_n 64 rfl rfl).symm k) = ix2 i k := funext fun a => Fin.ext (by
    match a with
    | ⟨0, _⟩ => exact lhs_arr_0 _ _
    | ⟨1, _⟩ => exact (lhs_arr_1 _ _).trans hk)
  have er : Cert.ReferenceIdeal.dot_S100000x64_S64x64_S100000x64_1_0_0_1_n_n.rhsIdx (ix2 i q) ((contrEquiv1 Cert.ReferenceIdeal.dot_S100000x64_S64x64_S100000x64_1_0_0_1_n_n 64 rfl rfl).symm k) = ix2 k q := funext fun a => Fin.ext (by
    match a with
    | ⟨0, _⟩ => exact (rhs_arr_0 _ _).trans hk
    | ⟨1, _⟩ => exact rhs_arr_1 _ _)
  rw [el, er]

/-- The dense layer at node `i`, column `q`. -/
theorem layer_apply (a h : (⟨Cert.ReferenceIdeal.S100000x64, .f32⟩ : BufTy).Contents (Elt Ideal))
    (wl wr : (⟨Cert.ReferenceIdeal.S64x64, .f32⟩ : BufTy).Contents (Elt Ideal))
    (b : (⟨Cert.ReferenceIdeal.S1x64, .f32⟩ : BufTy).Contents (Elt Ideal)) (i : Fin 100000) (q : Fin 64) :
    Cert.Stage.layer (F := Ideal) a h wl wr b (ix2 i q)
      = (∑ k : Fin 64, a (ix2 i k) * wl (ix2 k q)) + (∑ k : Fin 64, h (ix2 i k) * wr (ix2 k q)) + b (ix2 (0 : Fin 1) q) := by
  unfold Cert.Stage.layer
  rw [addf_apply, addf_apply, dot_arr_apply, dot_arr_apply]
  congr 1
  refine broadcastInDim_apply _ _ b (ix2 i q) (ix2 (0 : Fin 1) q) fun ax => ?_
  match ax with
  | ⟨0, _⟩ => rfl
  | ⟨1, _⟩ => rfl

/-- The layer followed by `max · 0`, at node `i`, column `q`. -/
theorem relu_layer_apply (a h : (⟨Cert.ReferenceIdeal.S100000x64, .f32⟩ : BufTy).Contents (Elt Ideal))
    (wl wr : (⟨Cert.ReferenceIdeal.S64x64, .f32⟩ : BufTy).Contents (Elt Ideal))
    (b : (⟨Cert.ReferenceIdeal.S1x64, .f32⟩ : BufTy).Contents (Elt Ideal)) (i : Fin 100000) (q : Fin 64) :
    Cert.Stage.relu (F := Ideal) (Cert.Stage.layer (F := Ideal) a h wl wr b) (ix2 i q)
      = max ((∑ k : Fin 64, a (ix2 i k) * wl (ix2 k q)) + (∑ k : Fin 64, h (ix2 i k) * wr (ix2 k q)) + b (ix2 (0 : Fin 1) q)) (Ideal.ofBits .f32 0x00000000#32) := by
  unfold Cert.Stage.relu
  rw [maximumf_apply, layer_apply]
  congr 1

/-- The payload of a block whose operands are the rows `r` of two node arrays, the two weight matrices and the bias row
    is the layer of those arrays, followed by `max · 0`, at row `r`. -/
theorem pay_eq_layer (x0 x1 : Vec Ideal S10000x64 .f32) (x2 x3 : Vec Ideal S64x64 .f32) (x4 : Vec Ideal S1x64 .f32)
    (a h : (⟨Cert.ReferenceIdeal.S100000x64, .f32⟩ : BufTy).Contents (Elt Ideal))
    (wl wr : (⟨Cert.ReferenceIdeal.S64x64, .f32⟩ : BufTy).Contents (Elt Ideal))
    (b : (⟨Cert.ReferenceIdeal.S1x64, .f32⟩ : BufTy).Contents (Elt Ideal)) (p : Fin 10000) (q : Fin 64) (r : Fin 100000)
    (h0 : ∀ k : Fin 64, x0 (ix2 p k) = a (ix2 r k)) (h1 : ∀ k : Fin 64, x1 (ix2 p k) = h (ix2 r k))
    (h2 : ∀ k : Fin 64, x2 (ix2 k q) = wl (ix2 k q)) (h3 : ∀ k : Fin 64, x3 (ix2 k q) = wr (ix2 k q))
    (h4 : x4 (ix2 (0 : Fin 1) q) = b (ix2 (0 : Fin 1) q)) :
    k0_pay1 (F := Ideal) x0 x1 x2 x3 x4 (ix2 p q)
      = Cert.Stage.relu (F := Ideal) (Cert.Stage.layer (F := Ideal) a h wl wr b) (ix2 r q) := by
  rw [pay_apply, relu_layer_apply]
  simp only [h0, h1, h2, h3, h4]

/-! ## From the blocks to the array -/

/-- The printed index maps, decided over the ten grid points: the two node windows and the output move with the
    point, one block of 10000 rows each, all 64 columns; the weights and the bias are whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem grid_N : cfg0.N = 10 := rfl

/-- The aggregated-neighbours window's block at point `t` is rows `10000 t …` of its array. -/
theorem blk_agg (V : (c : Dev nD) → (b : Ref sig .tc) → Buf (Elt Ideal) ((c : Thread nD τ).loc b)) (c : Dev nD)
    (t : Fin cfg0.N) (p : Fin 10000) (k : Fin 64) (r : Fin 100000) (hr : r.val = t.val * 10000 + p.val) :
    (iblk0 (F := Ideal) V c 0 t : Vec Ideal S10000x64 .f32) (ix2 p k) = (V c main_v29 : S100000x64.Idx → Elt Ideal .f32) (ix2 r k) := by
  obtain ⟨e0, e1, -⟩ := idx_facts t
  unfold iblk0
  rw [View.read_apply]
  show V c main_v29 _ = V c main_v29 _
  congr 1
  funext a
  apply Fin.ext
  match a with
  | ⟨0, _⟩ => show win0_0.index t (0 : Fin 2) * 10000 + 1 * p.val = r.val; omega
  | ⟨1, _⟩ => show win0_0.index t (1 : Fin 2) * 64 + 1 * k.val = k.val; omega

/-- The node-features window's block at point `t` is the same rows of its array. -/
theorem blk_feat (V : (c : Dev nD) → (b : Ref sig .tc) → Buf (Elt Ideal) ((c : Thread nD τ).loc b)) (c : Dev nD)
    (t : Fin cfg0.N) (p : Fin 10000) (k : Fin 64) (r : Fin 100000) (hr : r.val = t.val * 10000 + p.val) :
    (iblk0 (F := Ideal) V c 1 t : Vec Ideal S10000x64 .f32) (ix2 p k) = (V c main_v6 : S100000x64.Idx → Elt Ideal .f32) (ix2 r k) := by
  obtain ⟨-, -, e0, e1, -⟩ := idx_facts t
  unfold iblk0
  rw [View.read_apply]
  show V c main_v6 _ = V c main_v6 _
  congr 1
  funext a
  apply Fin.ext
  match a with
  | ⟨0, _⟩ => show win0_1.index t (0 : Fin 2) * 10000 + 1 * p.val = r.val; omega
  | ⟨1, _⟩ => show win0_1.index t (1 : Fin 2) * 64 + 1 * k.val = k.val; omega

/-- The first weight matrix is whole in its window at every point. -/
theorem blk_wl (V : (c : Dev nD) → (b : Ref sig .tc) → Buf (Elt Ideal) ((c : Thread nD τ).loc b)) (c : Dev nD)
    (t : Fin cfg0.N) (k q : Fin 64) :
    (iblk0 (F := Ideal) V c 2 t : Vec Ideal S64x64 .f32) (ix2 k q) = (V c main_v30 : S64x64.Idx → Elt Ideal .f32) (ix2 k q) := by
  obtain ⟨-, -, -, -, e0, e1, -⟩ := idx_facts t
  unfold iblk0
  rw [View.read_apply]
  show V c main_v30 _ = V c main_v30 _
  congr 1
  funext a
  apply Fin.ext
  match a with
  | ⟨0, _⟩ => show win0_2.index t (0 : Fin 2) * 64 + 1 * k.val = k.val; omega
  | ⟨1, _⟩ => show win0_2.index t (1 : Fin 2) * 64 + 1 * q.val = q.val; omega

/-- So is the second. -/
theorem blk_wr (V : (c : Dev nD) → (b : Ref sig .tc) → Buf (Elt Ideal) ((c : Thread nD τ).loc b)) (c : Dev nD)
    (t : Fin cfg0.N) (k q : Fin 64) :
    (iblk0 (F := Ideal) V c 3 t : Vec Ideal S64x64 .f32) (ix2 k q) = (V c main_v31 : S64x64.Idx → Elt Ideal .f32) (ix2 k q) := by
  obtain ⟨-, -, -, -, -, -, e0, e1, -⟩ := idx_facts t
  unfold iblk0
  rw [View.read_apply]
  show V c main_v31 _ = V c main_v31 _
  congr 1
  funext a
  apply Fin.ext
  match a with
  | ⟨0, _⟩ => show win0_3.index t (0 : Fin 2) * 64 + 1 * k.val = k.val; omega
  | ⟨1, _⟩ => show win0_3.index t (1 : Fin 2) * 64 + 1 * q.val = q.val; omega

/-- And the bias row. -/
theorem blk_bias (V : (c : Dev nD) → (b : Ref sig .tc) → Buf (Elt Ideal) ((c : Thread nD τ).loc b)) (c : Dev nD)
    (t : Fin cfg0.N) (z : Fin 1) (q : Fin 64) :
    (iblk0 (F := Ideal) V c 4 t : Vec Ideal S1x64 .f32) (ix2 z q) = (V c main_v32 : S1x64.Idx → Elt Ideal .f32) (ix2 z q) := by
  obtain ⟨-, -, -, -, -, -, -, -, e0, e1, -⟩ := idx_facts t
  unfold iblk0
  rw [View.read_apply]
  show V c main_v32 _ = V c main_v32 _
  congr 1
  funext a
  apply Fin.ext
  match a with
  | ⟨0, _⟩ => show win0_4.index t (0 : Fin 2) * 1 + 1 * z.val = z.val; omega
  | ⟨1, _⟩ => show win0_4.index t (1 : Fin 2) * 64 + 1 * q.val = q.val; omega

/-- WHAT POINT `t` WRITES BACK is block `t` of the layer, followed by `max · 0`, of the five operand arrays as the
    region finds them. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.Stage.relu (F := Ideal) (Cert.Stage.layer (F := Ideal) (V c main_v29) (V c main_v6) (V c main_v30) (V c main_v31) (V c main_v32))) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  refine funext fun (j : S10000x64.Idx) => ?_
  obtain ⟨p, q, rfl⟩ : ∃ (p : Fin 10000) (q : Fin 64), j = ix2 p q := ⟨j 0, j 1, eq_ix2 j⟩
  obtain ⟨-, -, -, -, -, -, -, -, -, -, e0, e1⟩ := idx_facts t
  have ht : t.val < 10 := t.isLt
  have hp : p.val < 10000 := p.isLt
  have hr : t.val * 10000 + p.val < 100000 := by omega
  have hemb : ((cfg0.win 5).blk t).view.emb (ix2 p q) = (ix2 (⟨t.val * 10000 + p.val, hr⟩ : Fin 100000) q : S100000x64.Idx) := by
    funext a
    apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  rw [View.read_apply]
  show k0_pay1 (F := Ideal) (iblk0 V c 0 t) (iblk0 V c 1 t) (iblk0 V c 2 t) (iblk0 V c 3 t) (iblk0 V c 4 t) (ix2 p q)
    = Cert.Stage.relu (F := Ideal) (Cert.Stage.layer (F := Ideal) (V c main_v29) (V c main_v6) (V c main_v30) (V c main_v31) (V c main_v32)) (((cfg0.win 5).blk t).view.emb (ix2 p q))
  rw [hemb]
  exact pay_eq_layer (iblk0 V c 0 t) (iblk0 V c 1 t) (iblk0 V c 2 t) (iblk0 V c 3 t) (iblk0 V c 4 t)
    (V c main_v29) (V c main_v6) (V c main_v30) (V c main_v31) (V c main_v32) p q ⟨t.val * 10000 + p.val, hr⟩
    (fun k => blk_agg V c t p k ⟨t.val * 10000 + p.val, hr⟩ rfl) (fun k => blk_feat V c t p k ⟨t.val * 10000 + p.val, hr⟩ rfl)
    (fun k => blk_wl V c t k q) (fun k => blk_wr V c t k q) (blk_bias V c t 0 q)

/-- A node-array index is in point `t`'s output block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v33).slice (win0_5.rect t)).set ↔ _
  rw [View.set_slice_whole, Rect.mem_set_unit]
  exact Iff.rfl

/-- The ten blocks tile the array: row `r` is in the block of point `r / 10000`. -/
theorem cover (i : S100000x64.Idx) : ∃ t : Fin cfg0.N, (cfg0.win 5).flush t = true ∧ i ∈ ((cfg0.win 5).blk t).view.set := by
  have h0 : (i 0).val < 100000 := (i 0).isLt
  have h1 : (i 1).val < 64 := (i 1).isLt
  obtain ⟨t, ht⟩ : ∃ t : Fin cfg0.N, t.val = (i 0).val / 10000 := ⟨⟨(i 0).val / 10000, by rw [grid_N]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- Whatever the buffers hold when region 0 is entered (`V`), its output array ends at the dense layer of its five
    operand arrays, followed by `max · 0`. -/
theorem value (V : (c : Dev nD) → (b : Ref sig .tc) → Buf (Elt Ideal) ((c : Thread nD τ).loc b)) (c : Dev nD) :
    (dat0 (F := Ideal) V c).arrAt 5 cfg0.N
      = Cert.Stage.relu (F := Ideal) (Cert.Stage.layer (F := Ideal) (V c main_v29) (V c main_v6) (V c main_v30) (V c main_v31) (V c main_v32)) :=
  (dat0 (F := Ideal) V c).arrAt_eq_of_cover 5 _ (fun t _ => flushed_eq V c t) cover

end Cert.KernelIdeal.Combine0

end
-- ==== Proof.Combine1.lean ====
/-
  Region 1 of the kernel's program is a dense layer.
-/
import proofs.«177141_j60773787238404_1_alg».proof.Proof.Gen.KernelIdeal.Frame
import proofs.«177141_j60773787238404_1_alg».proof.Proof.Stage
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Combine1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The zero offsets of a whole-block access, as the constant function. -/
theorem hz : (![0, 0] : Fin 2 → Nat) = fun _ => 0 := funext fun a => by
  match a with
  | ⟨0, _⟩ => rfl
  | ⟨1, _⟩ => rfl

/-! ## The block's matrix product at an index -/

theorem lhs_blk_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blk_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blk_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blk_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's product with a weight matrix into the zero accumulator, at row `p` and column `q`: the sum over the 64
    features of the row's entries times the column's. -/
theorem matmul_blk_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- The body's payload at row `p`, column `q` of the block. -/
theorem pay_apply (x0 x1 : Vec Ideal S10000x64 .f32) (x2 x3 : Vec Ideal S64x64 .f32) (x4 : Vec Ideal S1x64 .f32) (p : Fin 10000) (q : Fin 64) :
    k1_pay1 (F := Ideal) x0 x1 x2 x3 x4 (ix2 p q)
      = (∑ k : Fin 64, x0 (ix2 p k) * x2 (ix2 k q)) + (∑ k : Fin 64, x1 (ix2 p k) * x3 (ix2 k q)) + x4 (ix2 (0 : Fin 1) q) := by
  unfold k1_pay1
  simp only [shapeCast_self]
  rw [addf_apply, addf_apply, matmul_blk_apply, matmul_blk_apply, broadcastTo_1b_ab_apply]
  rfl

/-! ## The dense layer of whole arrays at an index -/

theorem lhs_arr_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_arr_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_arr_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_arr_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The product of a node array with a weight matrix, at node `i` and column `q`: the same sum over the 64 features. -/
theorem dot_arr_apply (l : FVec Ideal Cert.ReferenceIdeal.S100000x64 .f32) (r : FVec Ideal Cert.ReferenceIdeal.S64x64 .f32) (i : Fin 100000) (q : Fin 64) :
    Host.dotGeneral (F := Ideal) Cert.ReferenceIdeal.dot_S100000x64_S64x64_S100000x64_1_0_0_1_n_n none l r (ix2 i q)
      = ∑ k : Fin 64, l (ix2 i k) * r (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 i q) ((contrEquiv1 Cert.ReferenceIdeal.dot_S100000x64_S64x64_S100000x64_1_0_0_1_n_n 64 rfl rfl).symm k) = ix2 i k := funext fun a => Fin.ext (by
    match a with
    | ⟨0, _⟩ => exact lhs_arr_0 _ _
    | ⟨1, _⟩ => exact (lhs_arr_1 _ _).trans hk)
  have er : Cert.ReferenceIdeal.dot_S100000x64_S64x64_S100000x64_1_0_0_1_n_n.rhsIdx (ix2 i q) ((contrEquiv1 Cert.ReferenceIdeal.dot_S100000x64_S64x64_S100000x64_1_0_0_1_n_n 64 rfl rfl).symm k) = ix2 k q := funext fun a => Fin.ext (by
    match a with
    | ⟨0, _⟩ => exact (rhs_arr_0 _ _).trans hk
    | ⟨1, _⟩ => exact rhs_arr_1 _ _)
  rw [el, er]

/-- The dense layer at node `i`, column `q`. -/
theorem layer_apply (a h : (⟨Cert.ReferenceIdeal.S100000x64, .f32⟩ : BufTy).Contents (Elt Ideal))
    (wl wr : (⟨Cert.ReferenceIdeal.S64x64, .f32⟩ : BufTy).Contents (Elt Ideal))
    (b : (⟨Cert.ReferenceIdeal.S1x64, .f32⟩ : BufTy).Contents (Elt Ideal)) (i : Fin 100000) (q : Fin 64) :
    Cert.Stage.layer (F := Ideal) a h wl wr b (ix2 i q)
      = (∑ k : Fin 64, a (ix2 i k) * wl (ix2 k q)) + (∑ k : Fin 64, h (ix2 i k) * wr (ix2 k q)) + b (ix2 (0 : Fin 1) q) := by
  unfold Cert.Stage.layer
  rw [addf_apply, addf_apply, dot_arr_apply, dot_arr_apply]
  congr 1
  refine broadcastInDim_apply _ _ b (ix2 i q) (ix2 (0 : Fin 1) q) fun ax => ?_
  match ax with
  | ⟨0, _⟩ => rfl
  | ⟨1, _⟩ => rfl

/-- The payload of a block whose operands are the rows `r` of two node arrays, the two weight matrices and the bias row
    is the layer of those arrays at row `r`. -/
theorem pay_eq_layer (x0 x1 : Vec Ideal S10000x64 .f32) (x2 x3 : Vec Ideal S64x64 .f32) (x4 : Vec Ideal S1x64 .f32)
    (a h : (⟨Cert.ReferenceIdeal.S100000x64, .f32⟩ : BufTy).Contents (Elt Ideal))
    (wl wr : (⟨Cert.ReferenceIdeal.S64x64, .f32⟩ : BufTy).Contents (Elt Ideal))
    (b : (⟨Cert.ReferenceIdeal.S1x64, .f32⟩ : BufTy).Contents (Elt Ideal)) (p : Fin 10000) (q : Fin 64) (r : Fin 100000)
    (h0 : ∀ k : Fin 64, x0 (ix2 p k) = a (ix2 r k)) (h1 : ∀ k : Fin 64, x1 (ix2 p k) = h (ix2 r k))
    (h2 : ∀ k : Fin 64, x2 (ix2 k q) = wl (ix2 k q)) (h3 : ∀ k : Fin 64, x3 (ix2 k q) = wr (ix2 k q))
    (h4 : x4 (ix2 (0 : Fin 1) q) = b (ix2 (0 : Fin 1) q)) :
    k1_pay1 (F := Ideal) x0 x1 x2 x3 x4 (ix2 p q)
      = Cert.Stage.layer (F := Ideal) a h wl wr b (ix2 r q) := by
  rw [pay_apply, layer_apply]
  simp only [h0, h1, h2, h3, h4]

/-! ## From the blocks to the array -/

/-- The printed index maps, decided over the ten grid points: the two node windows and the output move with the
    point, one block of 10000 rows each, all 64 columns; the weights and the bias are whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem grid_N : cfg1.N = 10 := rfl

/-- The aggregated-neighbours window's block at point `t` is rows `10000 t …` of its array. -/
theorem blk_agg (V : (c : Dev nD) → (b : Ref sig .tc) → Buf (Elt Ideal) ((c : Thread nD τ).loc b)) (c : Dev nD)
    (t : Fin cfg1.N) (p : Fin 10000) (k : Fin 64) (r : Fin 100000) (hr : r.val = t.val * 10000 + p.val) :
    (iblk1 (F := Ideal) V c 0 t : Vec Ideal S10000x64 .f32) (ix2 p k) = (V c main_v56 : S100000x64.Idx → Elt Ideal .f32) (ix2 r k) := by
  obtain ⟨e0, e1, -⟩ := idx_facts t
  unfold iblk1
  rw [View.read_apply]
  show V c main_v56 _ = V c main_v56 _
  congr 1
  funext a
  apply Fin.ext
  match a with
  | ⟨0, _⟩ => show win1_0.index t (0 : Fin 2) * 10000 + 1 * p.val = r.val; omega
  | ⟨1, _⟩ => show win1_0.index t (1 : Fin 2) * 64 + 1 * k.val = k.val; omega

/-- The node-features window's block at point `t` is the same rows of its array. -/
theorem blk_feat (V : (c : Dev nD) → (b : Ref sig .tc) → Buf (Elt Ideal) ((c : Thread nD τ).loc b)) (c : Dev nD)
    (t : Fin cfg1.N) (p : Fin 10000) (k : Fin 64) (r : Fin 100000) (hr : r.val = t.val * 10000 + p.val) :
    (iblk1 (F := Ideal) V c 1 t : Vec Ideal S10000x64 .f32) (ix2 p k) = (V c main_v33 : S100000x64.Idx → Elt Ideal .f32) (ix2 r k) := by
  obtain ⟨-, -, e0, e1, -⟩ := idx_facts t
  unfold iblk1
  rw [View.read_apply]
  show V c main_v33 _ = V c main_v33 _
  congr 1
  funext a
  apply Fin.ext
  match a with
  | ⟨0, _⟩ => show win1_1.index t (0 : Fin 2) * 10000 + 1 * p.val = r.val; omega
  | ⟨1, _⟩ => show win1_1.index t (1 : Fin 2) * 64 + 1 * k.val = k.val; omega

/-- The first weight matrix is whole in its window at every point. -/
theorem blk_wl (V : (c : Dev nD) → (b : Ref sig .tc) → Buf (Elt Ideal) ((c : Thread nD τ).loc b)) (c : Dev nD)
    (t : Fin cfg1.N) (k q : Fin 64) :
    (iblk1 (F := Ideal) V c 2 t : Vec Ideal S64x64 .f32) (ix2 k q) = (V c main_v57 : S64x64.Idx → Elt Ideal .f32) (ix2 k q) := by
  obtain ⟨-, -, -, -, e0, e1, -⟩ := idx_facts t
  unfold iblk1
  rw [View.read_apply]
  show V c main_v57 _ = V c main_v57 _
  congr 1
  funext a
  apply Fin.ext
  match a with
  | ⟨0, _⟩ => show win1_2.index t (0 : Fin 2) * 64 + 1 * k.val = k.val; omega
  | ⟨1, _⟩ => show win1_2.index t (1 : Fin 2) * 64 + 1 * q.val = q.val; omega

/-- So is the second. -/
theorem blk_wr (V : (c : Dev nD) → (b : Ref sig .tc) → Buf (Elt Ideal) ((c : Thread nD τ).loc b)) (c : Dev nD)
    (t : Fin cfg1.N) (k q : Fin 64) :
    (iblk1 (F := Ideal) V c 3 t : Vec Ideal S64x64 .f32) (ix2 k q) = (V c main_v58 : S64x64.Idx → Elt Ideal .f32) (ix2 k q) := by
  obtain ⟨-, -, -, -, -, -, e0, e1, -⟩ := idx_facts t
  unfold iblk1
  rw [View.read_apply]
  show V c main_v58 _ = V c main_v58 _
  congr 1
  funext a
  apply Fin.ext
  match a with
  | ⟨0, _⟩ => show win1_3.index t (0 : Fin 2) * 64 + 1 * k.val = k.val; omega
  | ⟨1, _⟩ => show win1_3.index t (1 : Fin 2) * 64 + 1 * q.val = q.val; omega

/-- And the bias row. -/
theorem blk_bias (V : (c : Dev nD) → (b : Ref sig .tc) → Buf (Elt Ideal) ((c : Thread nD τ).loc b)) (c : Dev nD)
    (t : Fin cfg1.N) (z : Fin 1) (q : Fin 64) :
    (iblk1 (F := Ideal) V c 4 t : Vec Ideal S1x64 .f32) (ix2 z q) = (V c main_v59 : S1x64.Idx → Elt Ideal .f32) (ix2 z q) := by
  obtain ⟨-, -, -, -, -, -, -, -, e0, e1, -⟩ := idx_facts t
  unfold iblk1
  rw [View.read_apply]
  show V c main_v59 _ = V c main_v59 _
  congr 1
  funext a
  apply Fin.ext
  match a with
  | ⟨0, _⟩ => show win1_4.index t (0 : Fin 2) * 1 + 1 * z.val = z.val; omega
  | ⟨1, _⟩ => show win1_4.index t (1 : Fin 2) * 64 + 1 * q.val = q.val; omega

/-- WHAT POINT `t` WRITES BACK is block `t` of the layer of the five operand arrays as the region finds them. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (Cert.Stage.layer (F := Ideal) (V c main_v56) (V c main_v33) (V c main_v57) (V c main_v58) (V c main_v59)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  refine funext fun (j : S10000x64.Idx) => ?_
  obtain ⟨p, q, rfl⟩ : ∃ (p : Fin 10000) (q : Fin 64), j = ix2 p q := ⟨j 0, j 1, eq_ix2 j⟩
  obtain ⟨-, -, -, -, -, -, -, -, -, -, e0, e1⟩ := idx_facts t
  have ht : t.val < 10 := t.isLt
  have hp : p.val < 10000 := p.isLt
  have hr : t.val * 10000 + p.val < 100000 := by omega
  have hemb : ((cfg1.win 5).blk t).view.emb (ix2 p q) = (ix2 (⟨t.val * 10000 + p.val, hr⟩ : Fin 100000) q : S100000x64.Idx) := by
    funext a
    apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  rw [View.read_apply]
  show k1_pay1 (F := Ideal) (iblk1 V c 0 t) (iblk1 V c 1 t) (iblk1 V c 2 t) (iblk1 V c 3 t) (iblk1 V c 4 t) (ix2 p q)
    = Cert.Stage.layer (F := Ideal) (V c main_v56) (V c main_v33) (V c main_v57) (V c main_v58) (V c main_v59) (((cfg1.win 5).blk t).view.emb (ix2 p q))
  rw [hemb]
  exact pay_eq_layer (iblk1 V c 0 t) (iblk1 V c 1 t) (iblk1 V c 2 t) (iblk1 V c 3 t) (iblk1 V c 4 t)
    (V c main_v56) (V c main_v33) (V c main_v57) (V c main_v58) (V c main_v59) p q ⟨t.val * 10000 + p.val, hr⟩
    (fun k => blk_agg V c t p k ⟨t.val * 10000 + p.val, hr⟩ rfl) (fun k => blk_feat V c t p k ⟨t.val * 10000 + p.val, hr⟩ rfl)
    (fun k => blk_wl V c t k q) (fun k => blk_wr V c t k q) (blk_bias V c t 0 q)

/-- A node-array index is in point `t`'s output block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v60).slice (win1_5.rect t)).set ↔ _
  rw [View.set_slice_whole, Rect.mem_set_unit]
  exact Iff.rfl

/-- The ten blocks tile the array: row `r` is in the block of point `r / 10000`. -/
theorem cover (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  obtain ⟨t, ht⟩ : ∃ t : Fin cfg1.N, t.val = (i 0).val / 10000 := ⟨⟨(i 0).val / 10000, by rw [grid_N]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- Whatever the buffers hold when region 1 is entered (`V`), its output array ends at the dense layer of its five
    operand arrays. -/
theorem value (V : (c : Dev nD) → (b : Ref sig .tc) → Buf (Elt Ideal) ((c : Thread nD τ).loc b)) (c : Dev nD) :
    (dat1 (F := Ideal) V c).arrAt 5 cfg1.N
      = Cert.Stage.layer (F := Ideal) (V c main_v56) (V c main_v33) (V c main_v57) (V c main_v58) (V c main_v59) :=
  (dat1 (F := Ideal) V c).arrAt_eq_of_cover 5 _ (fun t _ => flushed_eq V c t) cover

end Cert.KernelIdeal.Combine1

end
-- ==== Proof.EdgeScore.lean ====
/-
  Region 2 of the kernel's program and what follows it: every edge's score.
-/
import proofs.«177141_j60773787238404_1_alg».proof.Proof.Gen.KernelIdeal.Frame
import proofs.«177141_j60773787238404_1_alg».proof.Proof.Stage
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.EdgeScore

open Cert.KernelIdeal Cert.KernelIdeal.Gen
open Idealize.ShloMosaic Idealize.ShloMosaic.TcCoe Idealize.SL.Sem
open Idealize.ShloMosaic.ValueIdx
open Idealize.ShloMosaic.Pipeline (Dat Cfg Window)

/-- The bias as one row: a vector `[64]` cast to `[1, 64]` is the vector spread along a new leading unit axis. -/
theorem bias_row (b : (⟨S64, .f32⟩ : BufTy).Contents (Elt Ideal)) :
    shapeCast S1x64 b shapeCasts_S64_S1x64 = Cert.Stage.brow (F := Ideal) b := by
  funext j
  obtain ⟨u, q, rfl⟩ : ∃ (u : Fin 1) (q : Fin 64), j = ix2 u q := ⟨j 0, j 1, eq_ix2 j⟩
  -- both sides read `b` at the column coordinate `q`
  refine (shapeCast_a_1a_apply b shapeCasts_S64_S1x64 u q).trans ?_
  unfold Cert.Stage.brow
  exact (broadcastInDim_apply _ _ b (ix2 u q) (ix1 q) (fun a => match a with | ⟨0, _⟩ => rfl)).symm

/-! ## The body's payload: row by row, the inner product of two blocks -/

/-- A sum over the lanes of a `[8192, 64]` block, read at row `p`, inserts the lane `k` after `p`. -/
theorem lift_row (p : Fin 8192) (k : Fin 64) : reduces_S8192x64_S8192.lift (ix1 p) k = ix2 p k :=
  funext fun a => Fin.ext (by match a with | ⟨0, _⟩ => rfl | ⟨1, _⟩ => rfl)

/-- The payload at row `p` of its one column: the sum over the 64 lanes of the products of the two blocks' entries
    in that row. The two identity casts drop, the lane sum's accumulator is the neutral zero, and the cast of the
    `[8192]` vector of sums to a column keeps the row-major position `p`. -/
theorem pay_apply (x0 x1 : Vec Ideal S8192x64 .f32) (p : Fin 8192) (u : Fin 1) :
    k2_pay1 x0 x1 (ix2 p u) = ∑ k : Fin 64, x0 (ix2 p k) * x1 (ix2 p k) := by
  unfold k2_pay1
  refine (shapeCast_apply _ _ (ix2 p u) (ix1 p) (by
      have hu : u.val = 0 := by omega
      rw [Shape.rowMajor_val_two, Shape.rowMajor_val_one]
      show p.val = p.val * 1 + u.val
      omega)).trans ?_
  refine (Ideal.multiReduction_add_single _ _ _ _ _ (ix1 p)).trans ?_
  refine Finset.sum_congr rfl fun (k : Fin 64) _ => ?_
  rw [lift_row, mulf_apply, shapeCast_self, shapeCast_self]

/-! ## The three windows move together -/

theorem hz : (![0, 0] : Fin 2 → Nat) = fun _ => 0 := funext fun a => by fin_cases a <;> rfl

/-- At grid point `t` each of the three windows is at block row `t`, block column `0`: decided over the 196 points. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0 :=
  (by decide +kernel : ∀ t : Fin grid2.N, _)

/-! ## What a grid point reads and writes -/

/-- Row by row, the inner product of two arrays of 1605632 rows of 64 lanes, as a column. -/
def rowDot (a1 a2 : S1605632x64.Idx → EReal) : S1605632x1.Idx → EReal :=
  fun i => ∑ k : Fin 64, a1 (ix2 (⟨(i 0).val, idx2_lt0 i⟩ : Fin 1605632) k) * a2 (ix2 (⟨(i 0).val, idx2_lt0 i⟩ : Fin 1605632) k)

/-- The first operand's block at point `t` holds rows `8192 t … 8192 t + 8191` of its array, all 64 lanes. -/
theorem blk0_apply (V : (c : Dev nD) → (b : Ref sig .tc) → Buf (Elt Ideal) ((c : Thread nD τ).loc b)) (c : Dev nD)
    (t : Fin cfg2.N) (y : ((cfg2.win 0).xblock (cfg2.grid.coords t)).Idx) (i : S1605632x64.Idx)
    (h0 : (i 0).val = t.val * 8192 + (y 0).val) (h1 : (i 1).val = (y 1).val) :
    iblk2 V c 0 t y = V c main_v79 i := by
  unfold iblk2
  show V c main_v79 (((cfg2.win 0).blk t).view.emb y) = V c main_v79 i
  obtain ⟨e0, e1, -, -, -, -⟩ := idx_facts t
  refine congrArg (V c main_v79) (funext fun a => Fin.ext ?_)
  match a with
  | ⟨0, _⟩ => show win2_0.index t (0 : Fin 2) * 8192 + 1 * (y 0).val = (i 0).val; omega
  | ⟨1, _⟩ => show win2_0.index t (1 : Fin 2) * 64 + 1 * (y 1).val = (i 1).val; omega

/-- The second operand's block likewise. -/
theorem blk1_apply (V : (c : Dev nD) → (b : Ref sig .tc) → Buf (Elt Ideal) ((c : Thread nD τ).loc b)) (c : Dev nD)
    (t : Fin cfg2.N) (y : ((cfg2.win 1).xblock (cfg2.grid.coords t)).Idx) (i : S1605632x64.Idx)
    (h0 : (i 0).val = t.val * 8192 + (y 0).val) (h1 : (i 1).val = (y 1).val) :
    iblk2 V c 1 t y = V c main_v80 i := by
  unfold iblk2
  show V c main_v80 (((cfg2.win 1).blk t).view.emb y) = V c main_v80 i
  obtain ⟨-, -, e2, e3, -, -⟩ := idx_facts t
  refine congrArg (V c main_v80) (funext fun a => Fin.ext ?_)
  match a with
  | ⟨0, _⟩ => show win2_1.index t (0 : Fin 2) * 8192 + 1 * (y 0).val = (i 0).val; omega
  | ⟨1, _⟩ => show win2_1.index t (1 : Fin 2) * 64 + 1 * (y 1).val = (i 1).val; omega

/-- WHAT POINT `t` WRITES BACK is block `t` of the row products of the two arrays as the region finds them. -/
theorem flushed_eq (V : (c : Dev nD) → (b : Ref sig .tc) → Buf (Elt Ideal) ((c : Thread nD τ).loc b)) (c : Dev nD)
    (t : Fin cfg2.N) :
    (dat2 (F := Ideal) V c).flushed 2 t = ((cfg2.win 2).blk t).view.read (Elt Ideal) (rowDot (V c main_v79) (V c main_v80)) := by
  show (cfg2.win 2).cut (grid2.coords t) ((dat2 (F := Ideal) V c).after 2 t) = _
  rw [after2_2]
  unfold out2_2
  rw [View.canon_unit_zero hz]
  simp only [View.ld_unit_zero (S := S8192x64) hz]
  obtain ⟨-, -, -, -, e4, e5⟩ := idx_facts t
  funext j
  obtain ⟨p, u, rfl⟩ : ∃ (p : Fin 8192) (u : Fin 1), j = ix2 p u := ⟨j 0, j 1, eq_ix2 j⟩
  show k2_pay1 (iblk2 V c 0 t) (iblk2 V c 1 t) (ix2 p u)
    = rowDot (V c main_v79) (V c main_v80) (((cfg2.win 2).blk t).view.emb (ix2 p u))
  refine (pay_apply _ _ p u).trans ?_
  unfold rowDot
  refine Finset.sum_congr rfl fun k _ => ?_
  -- the output block's row `p` at point `t` is row `8192 t + p` of the array, where both operand blocks read
  have hr : ((((cfg2.win 2).blk t).view.emb (ix2 p u)) 0).val = t.val * 8192 + p.val := by
    show win2_2.index t (0 : Fin 2) * 8192 + 1 * p.val = _
    omega
  exact congrArg₂ (· * ·) (blk0_apply V c t (ix2 p k) _ hr rfl) (blk1_apply V c t (ix2 p k) _ hr rfl)

/-! ## From the blocks to the array -/

/-- A row of the output column is in point `t`'s block iff each coordinate is in the block's range on its axis. -/
theorem mem_blk (t : Fin cfg2.N) (i : S1605632x1.Idx) :
    i ∈ ((cfg2.win 2).blk t).view.set ↔ ∀ a : Fin 2, win2_2.index t a * S8192x1.size a ≤ (i a).val ∧ (i a).val < win2_2.index t a * S8192x1.size a + S8192x1.size a := by
  show i ∈ ((View.whole main_v81).slice (win2_2.rect t)).set ↔ _
  rw [View.set_slice_whole, Rect.mem_set_unit]
  exact Iff.rfl

/-- The 196 blocks of 8192 rows tile the 1605632 rows: row `r` is in the block of point `r / 8192`. -/
theorem cover (i : S1605632x1.Idx) :
    ∃ t : Fin cfg2.N, (cfg2.win 2).flush t = true ∧ i ∈ ((cfg2.win 2).blk t).view.set := by
  have hi0 : (i 0).val < 1605632 := (i 0).isLt
  have hi1 : (i 1).val < 1 := (i 1).isLt
  obtain ⟨t, ht⟩ : ∃ t : Fin cfg2.N, t.val = (i 0).val / 8192 :=
    ⟨⟨(i 0).val / 8192, Nat.lt_of_lt_of_eq (by omega) N_2.symm⟩, rfl⟩
  obtain ⟨-, -, -, -, e4, e5⟩ := idx_facts t
  refine ⟨t, flush2_2 t, ?_⟩
  rw [mem_blk]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 1 ≤ (i 1).val ∧ (i 1).val < win2_2.index t (1 : Fin 2) * 1 + 1; omega

/-- THE OUTPUT ARRAY after the region: row by row, the inner product of the two operand arrays as the region finds them. -/
theorem arr_eq (V : (c : Dev nD) → (b : Ref sig .tc) → Buf (Elt Ideal) ((c : Thread nD τ).loc b)) (c : Dev nD) :
    (dat2 (F := Ideal) V c).arrAt 2 cfg2.N = rowDot (V c main_v79) (V c main_v80) :=
  (dat2 (F := Ideal) V c).arrAt_eq_of_cover 2 (rowDot (V c main_v79) (V c main_v80)) (fun t _ => flushed_eq V c t) cover

/-! ## The rows below the padding, and the reference's sum -/

/-- A row array padded BELOW with 5632 rows, read at a row of the original, is the original there: the padded rows
    are never met. -/
theorem pad_rows_apply (e : (⟨S1600000x64, .f32⟩ : BufTy).Contents (Elt Ideal)) (z : (⟨S_, .f32⟩ : BufTy).Contents (Elt Ideal))
    (r : Fin 1600000) (hr : r.val < 1605632) (k : Fin 64) :
    pad S1605632x64 ![0, 0] ![5632, 0] ![0, 0] e z pads_S1600000x64_S1605632x64_056320_000 h_S_ (ix2 (⟨r.val, hr⟩ : Fin 1605632) k)
      = e (ix2 r k) :=
  pad_apply_of_inside _ _ _ e z _ _ _ (ix2 r k) fun a => match a with
    | ⟨0, _⟩ => by show r.val = 0 + r.val * (0 + 1); omega
    | ⟨1, _⟩ => by show k.val = 0 + k.val * (0 + 1); omega

/-- A sum over the lanes of a `[1600000, 64]` array, read at edge `r`, inserts the lane `k` after `r`. -/
theorem lift_edge (h : S1600000x64.Reduces [1] S1600000) (r : Fin 1600000) (k : Fin 64) : h.lift (ix1 r) k = ix2 r k :=
  funext fun a => Fin.ext (by match a with | ⟨0, _⟩ => rfl | ⟨1, _⟩ => rfl)

/-- The reference's score of edge `r`: the sum from the zero word, which is `0`, of the 64 products of the two rows. -/
theorem score_apply (e1 e2 : (⟨S1600000x64, .f32⟩ : BufTy).Contents (Elt Ideal)) (r : Fin 1600000) :
    Cert.Stage.score (F := Ideal) e1 e2 (ix1 r) = ∑ k : Fin 64, e1 (ix2 r k) * e2 (ix2 r k) := by
  have hR : S1600000x64.Reduces [1] S1600000 := by decide
  unfold Cert.Stage.score
  show Ideal.hostReduceAdd _ (mulf (F := Ideal) e1 e2) (Ideal.ofBits .f32 0x00000000#32) (ix1 r) = _
  rw [Ideal.hostReduceAdd_single _ hR, Ideal.ofBits_zero_f32, zero_add]
  refine Finset.sum_congr rfl fun (k : Fin 64) _ => ?_
  rw [lift_edge, mulf_apply]

/-- The output column cut back to the first 1600000 rows and read as a vector: entry `r` is the column's row `r`, which
    the cut keeps in place. -/
theorem tail_apply (a1 a2 : S1605632x64.Idx → EReal) (r : Fin 1600000) (hr : r.val < 1605632) :
    shapeCast S1600000 (extractStridedSlice S1600000x1 ![0, 0] (rowDot a1 a2) slices_S1605632x1_S1600000x1_0_0) shapeCasts_S1600000x1_S1600000 (ix1 r)
      = ∑ k : Fin 64, a1 (ix2 (⟨r.val, hr⟩ : Fin 1605632) k) * a2 (ix2 (⟨r.val, hr⟩ : Fin 1605632) k) := by
  refine (shapeCast_apply _ _ (ix1 r) (ix2 r (0 : Fin 1)) (by
      rw [Shape.rowMajor_val_two, Shape.rowMajor_val_one]
      show r.val * 1 + 0 = r.val
      omega)).trans ?_
  exact extractStridedSlice_apply _ _ _ (ix2 r (0 : Fin 1)) (ix2 (⟨r.val, hr⟩ : Fin 1605632) (0 : Fin 1)) (fun a => match a with
      | ⟨0, _⟩ => by show r.val = 0 + r.val; omega
      | ⟨1, _⟩ => by show 0 = 0 + 0; rfl)

/-- If region 2 is entered with its two operand arrays holding the row arrays `e1`, `e2` padded below with 5632 rows of
    anything, then its output column, cut back to the first 1600000 rows and read as a vector, is the edges' scores. -/
theorem value (V : (c : Dev nD) → (b : Ref sig .tc) → Buf (Elt Ideal) ((c : Thread nD τ).loc b)) (c : Dev nD)
    (e1 e2 : (⟨S1600000x64, .f32⟩ : BufTy).Contents (Elt Ideal)) (z1 z2 : (⟨S_, .f32⟩ : BufTy).Contents (Elt Ideal))
    (h1 : V c main_v79 = pad S1605632x64 ![0, 0] ![5632, 0] ![0, 0] e1 z1 pads_S1600000x64_S1605632x64_056320_000 h_S_)
    (h2 : V c main_v80 = pad S1605632x64 ![0, 0] ![5632, 0] ![0, 0] e2 z2 pads_S1600000x64_S1605632x64_056320_000 h_S_) :
    shapeCast S1600000 (extractStridedSlice S1600000x1 ![0, 0] ((dat2 (F := Ideal) V c).arrAt 2 cfg2.N) slices_S1605632x1_S1600000x1_0_0) shapeCasts_S1600000x1_S1600000
      = Cert.Stage.score (F := Ideal) e1 e2 := by
  rw [arr_eq, h1, h2]
  funext e
  obtain ⟨r, rfl⟩ : ∃ r : Fin 1600000, e = ix1 r := ⟨e 0, eq_ix1 e⟩
  have hr : r.val < 1605632 := by omega
  refine (tail_apply _ _ r hr).trans ?_
  rw [score_apply]
  refine Finset.sum_congr rfl fun (k : Fin 64) _ => ?_
  -- a row below 1600000 of a padded array is the original's row
  exact congrArg₂ (· * ·) (pad_rows_apply e1 z1 r hr k) (pad_rows_apply e2 z2 r hr k)

end Cert.KernelIdeal.EdgeScore

end
-- ==== Proof.Fold.lean ====
/-
  The kernel's result, read through its whole program.

  The buffers' contents at the ten boundaries between the program's segments are a fold from the launch memory: a host
  stretch applies its operations, a region replaces its output array by what its grid points wrote back. Walking the
  fold from the launch to the return, every buffer a later segment reads is one of the network's stages of the
  arguments: the looked-up features, the first layer's output, the second layer's output, and at the end the edges'
  scores.
-/
import proofs.«177141_j60773787238404_1_alg».proof.Proof.FoldHost
import proofs.«177141_j60773787238404_1_alg».proof.Proof.Combine0
import proofs.«177141_j60773787238404_1_alg».proof.Proof.Combine1
import proofs.«177141_j60773787238404_1_alg».proof.Proof.EdgeScore

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments stay what they were launched with, as far as each is read -/

theorem edges_at1 : W1 m ρ c (Proc.devRef .tc main_arg8) = (m ((c : Thread nD τ).loc main_arg8)) := stretch0_keep8 (W0 m ρ c)
theorem edges_at2 : W2 m ρ c (Proc.devRef .tc main_arg8) = (m ((c : Thread nD τ).loc main_arg8)) :=
  (W2_of_ne m ρ c main_arg8 (by decide)).trans (edges_at1 m ρ c)
theorem edges_at3 : W3 m ρ c (Proc.devRef .tc main_arg8) = (m ((c : Thread nD τ).loc main_arg8)) :=
  (stretch1_keep8 (W2 m ρ c)).trans (edges_at2 m ρ c)
theorem edges_at4 : W4 m ρ c (Proc.devRef .tc main_arg8) = (m ((c : Thread nD τ).loc main_arg8)) :=
  (W4_of_ne m ρ c main_arg8 (by decide)).trans (edges_at3 m ρ c)
theorem wl2_at2 : W2 m ρ c (Proc.devRef .tc main_arg4) = (m ((c : Thread nD τ).loc main_arg4)) :=
  (W2_of_ne m ρ c main_arg4 (by decide)).trans (stretch0_keep4 (W0 m ρ c))
theorem wr2_at2 : W2 m ρ c (Proc.devRef .tc main_arg5) = (m ((c : Thread nD τ).loc main_arg5)) :=
  (W2_of_ne m ρ c main_arg5 (by decide)).trans (stretch0_keep5 (W0 m ρ c))
theorem b2_at2 : W2 m ρ c (Proc.devRef .tc main_arg6) = (m ((c : Thread nD τ).loc main_arg6)) :=
  (W2_of_ne m ρ c main_arg6 (by decide)).trans (stretch0_keep6 (W0 m ρ c))

/-! ## The two dense layers -/

/-- After region 0 its output array holds the first layer's output. -/
theorem first_layer : W2 m ρ c (Proc.devRef .tc main_v33)
    = Cert.Stage.h1 (F := Ideal) (m ((c : Thread nD τ).loc main_arg0)) (m ((c : Thread nD τ).loc main_arg1)) (m ((c : Thread nD τ).loc main_arg2)) (Cert.Stage.brow (F := Ideal) (m ((c : Thread nD τ).loc main_arg3))) (m ((c : Thread nD τ).loc main_arg7)) (m ((c : Thread nD τ).loc main_arg8)) := by
  have e29 : V1 m ρ c main_v29 = _ := stretch0_agg (W0 m ρ c)
  have e6 : V1 m ρ c main_v6 = _ := stretch0_x (W0 m ρ c)
  have e30 : V1 m ρ c main_v30 = _ := stretch0_wl (W0 m ρ c)
  have e31 : V1 m ρ c main_v31 = _ := stretch0_wr (W0 m ρ c)
  have e32 : V1 m ρ c main_v32 = _ := (stretch0_b (W0 m ρ c)).trans (Cert.KernelIdeal.EdgeScore.bias_row _)
  refine (W2_arr m ρ c 5).trans ((Cert.KernelIdeal.Combine0.value (V1 m ρ) c).trans ?_)
  rw [e29, e6, e30, e31, e32]
  rfl

/-- After region 1 its output array holds the second layer's output. -/
theorem second_layer : W4 m ρ c (Proc.devRef .tc main_v60)
    = Cert.Stage.h2 (F := Ideal) (m ((c : Thread nD τ).loc main_arg0)) (m ((c : Thread nD τ).loc main_arg1)) (m ((c : Thread nD τ).loc main_arg2)) (Cert.Stage.brow (F := Ideal) (m ((c : Thread nD τ).loc main_arg3)))
        (m ((c : Thread nD τ).loc main_arg4)) (m ((c : Thread nD τ).loc main_arg5)) (Cert.Stage.brow (F := Ideal) (m ((c : Thread nD τ).loc main_arg6))) (m ((c : Thread nD τ).loc main_arg7)) (m ((c : Thread nD τ).loc main_arg8)) := by
  have eh : V3 m ρ c main_v33 = _ := (stretch1_keep_h (W2 m ρ c)).trans (first_layer m ρ c)
  have e56 : V3 m ρ c main_v56 = _ := stretch1_agg (W2 m ρ c)
  have e57 : V3 m ρ c main_v57 = _ := stretch1_wl (W2 m ρ c)
  have e58 : V3 m ρ c main_v58 = _ := stretch1_wr (W2 m ρ c)
  have e59 : V3 m ρ c main_v59 = _ := (stretch1_b (W2 m ρ c)).trans (Cert.KernelIdeal.EdgeScore.bias_row _)
  refine (W4_arr m ρ c 5).trans ((Cert.KernelIdeal.Combine1.value (V3 m ρ) c).trans ?_)
  rw [e56, eh, e57, e58, e59, first_layer m ρ c, edges_at2 m ρ c, wl2_at2 m ρ c, wr2_at2 m ρ c, b2_at2 m ρ c]
  rfl

/-! ## The edges' scores -/

/-- Region 2 is entered with the second layer's rows at the edges' sources, padded below with some scalar … -/
theorem sources_padded : ∃ z : (⟨S_, .f32⟩ : BufTy).Contents (Elt Ideal), V8 m ρ c main_v79
    = pad S1605632x64 ![0, 0] ![5632, 0] ![0, 0]
        (Cert.Stage.rows (F := Ideal) (W4 m ρ c (Proc.devRef .tc main_v60)) (Cert.Stage.srcOf (F := Ideal) (m ((c : Thread nD τ).loc main_arg8))))
        z pads_S1600000x64_S1605632x64_056320_000 h_S_ := by
  refine ⟨?z, (stretch2_3_keep (W7 m ρ c)).trans ((stretch2_2_keep79 (W6 m ρ c)).trans ((stretch2_1_pad (W5 m ρ c)).trans ?h))⟩
  case h =>
    rw [show W5 m ρ c (Proc.devRef .tc main_v69) = _ from stretch2_src (W4 m ρ c), edges_at4 m ρ c]
/-- … and at their targets. -/
theorem targets_padded : ∃ z : (⟨S_, .f32⟩ : BufTy).Contents (Elt Ideal), V8 m ρ c main_v80
    = pad S1605632x64 ![0, 0] ![5632, 0] ![0, 0]
        (Cert.Stage.rows (F := Ideal) (W4 m ρ c (Proc.devRef .tc main_v60)) (Cert.Stage.dstOf (F := Ideal) (m ((c : Thread nD τ).loc main_arg8))))
        z pads_S1600000x64_S1605632x64_056320_000 h_S_ := by
  refine ⟨?z, (stretch2_3_pad (W7 m ρ c)).trans ?h⟩
  case h =>
    rw [show W7 m ρ c (Proc.devRef .tc main_v78) = _ from (stretch2_2_keep78 (W6 m ρ c)).trans ((stretch2_1_keep (W5 m ρ c)).trans (stretch2_dst (W4 m ρ c))),
      edges_at4 m ρ c]

/-- THE KERNEL'S RESULT: the network of the arguments. -/
theorem result : W10 m ρ c (Proc.devRef .tc main_v83)
    = Cert.Stage.out (F := Ideal) (m ((c : Thread nD τ).loc main_arg0)) (m ((c : Thread nD τ).loc main_arg1)) (m ((c : Thread nD τ).loc main_arg2)) (Cert.Stage.brow (F := Ideal) (m ((c : Thread nD τ).loc main_arg3)))
        (m ((c : Thread nD τ).loc main_arg4)) (m ((c : Thread nD τ).loc main_arg5)) (Cert.Stage.brow (F := Ideal) (m ((c : Thread nD τ).loc main_arg6))) (m ((c : Thread nD τ).loc main_arg7)) (m ((c : Thread nD τ).loc main_arg8)) := by
  refine (stretch3_out (W9 m ρ c)).trans ?_
  rw [show W9 m ρ c (Proc.devRef .tc main_v81) = _ from W9_arr m ρ c 2]
  obtain ⟨z1, h79⟩ := sources_padded m ρ c
  obtain ⟨z2, h80⟩ := targets_padded m ρ c
  refine (Cert.KernelIdeal.EdgeScore.value (V8 m ρ) c _ _ z1 z2 h79 h80).trans ?_
  rw [second_layer m ρ c]
  rfl

end Cert.KernelIdeal.Fold

end
-- ==== Proof.RefStage.lean ====
/-
  The reference's result is the network's stages composed: its composed term of the arguments is, read stage by stage,
  the lookup, two dense layers over neighbour means (the first followed by `max · 0`) and the edges' scores.
-/
import proofs.«177141_j60773787238404_1_alg».proof.Proof.Gen.ReferenceIdeal.Run
import proofs.«177141_j60773787238404_1_alg».proof.Proof.Stage

noncomputable section

namespace Cert.ReferenceIdeal.Staged

open Cert.ReferenceIdeal Cert.ReferenceIdeal.Gen Cert.ReferenceIdeal.Value
open Idealize.ShloMosaic Idealize.ShloMosaic.TcCoe Idealize.SL.Sem

variable {F : FTy → Type} [FloatOps F]

set_option maxRecDepth 8192 in
/-- The run's result term is `Stage.out` of the argument arrays, the two biases each spread to a row. -/
theorem result_eq (m : (ℓ : Loc nD τ sig) → Buf (Elt F) ℓ) (c : Dev nD) :
    res_out0 (F := F) m c
      = Cert.Stage.out (F := F) (m ((c.tc : Thread nD τ).loc main_arg0)) (m ((c.tc : Thread nD τ).loc main_arg1)) (m ((c.tc : Thread nD τ).loc main_arg2)) (Cert.Stage.brow (F := F) (m ((c.tc : Thread nD τ).loc main_arg3)))
          (m ((c.tc : Thread nD τ).loc main_arg4)) (m ((c.tc : Thread nD τ).loc main_arg5)) (Cert.Stage.brow (F := F) (m ((c.tc : Thread nD τ).loc main_arg6))) (m ((c.tc : Thread nD τ).loc main_arg7)) (m ((c.tc : Thread nD τ).loc main_arg8)) := by
  show res_main_v89 (F := F) m c = _
  unfold res_main_v89 Cert.Stage.out Cert.Stage.score Cert.Stage.h2 Cert.Stage.h1 Cert.Stage.relu Cert.Stage.layer Cert.Stage.agg
    Cert.Stage.deg Cert.Stage.rows Cert.Stage.lookup Cert.Stage.wrapE Cert.Stage.wrapN Cert.Stage.srcOf Cert.Stage.dstOf Cert.Stage.tr Cert.Stage.brow
  rfl

end Cert.ReferenceIdeal.Staged

end
-- ==== Proof.lean ====
/-
  The certificate: a two-layer message-passing network (embedding lookup, two SAGE layers with mean aggregation, the
  first followed by `max · 0`, then every edge's score as the inner product of its endpoints' rows), the kernel's
  program against the plain one.

  The kernel's program runs each layer's dense part, `mean · Wlᵀ + h · Wrᵀ + b`, as a region over ten blocks of 10000
  rows (two matrix products into zero accumulators, operands first narrowed to bf16, which at the ideal values is the
  identity), and the edges' scores as a region over 196 blocks of 8192 rows of the two endpoint-row arrays, padded below
  to a whole number of blocks and cut back afterwards; gathers, scatter-adds and the quotient by the degree are the same
  host operations in both programs. So at the ideal values both results are one function of the arguments
  (`Stage.out`): the reference's composed term read stage by stage (RefStage), the kernel's buffers followed from the
  launch to the return through its segments (Fold), each region's output array identified with its stage of the
  region's operand arrays (Combine0, Combine1, EdgeScore). No law beyond commutativity and associativity of the sum over
  the 64 features is used, so the precondition is never opened. The idealization rewrote nothing, so `preserves` is
  trivial; the three frames are the generated ones (the reference's is its run with the result dropped).
-/
import proofs.«177141_j60773787238404_1_alg».proof.Defs
import proofs.«177141_j60773787238404_1_alg».proof.Proof.Gen.Kernel
import proofs.«177141_j60773787238404_1_alg».proof.Proof.Gen.Kernel.Skeleton
import proofs.«177141_j60773787238404_1_alg».proof.Proof.Gen.Kernel.Launch
import proofs.«177141_j60773787238404_1_alg».proof.Proof.Gen.Kernel.Points
import proofs.«177141_j60773787238404_1_alg».proof.Proof.Gen.Kernel.Frame
import proofs.«177141_j60773787238404_1_alg».proof.Proof.Gen.KernelIdeal
import proofs.«177141_j60773787238404_1_alg».proof.Proof.Gen.KernelIdeal.Skeleton
import proofs.«177141_j60773787238404_1_alg».proof.Proof.Gen.KernelIdeal.Launch
import proofs.«177141_j60773787238404_1_alg».proof.Proof.Gen.KernelIdeal.Points
import proofs.«177141_j60773787238404_1_alg».proof.Proof.Gen.KernelIdeal.Frame
import proofs.«177141_j60773787238404_1_alg».proof.Proof.Gen.ReferenceIdeal
import proofs.«177141_j60773787238404_1_alg».proof.Proof.Gen.Pre_finite_inputs
import proofs.«177141_j60773787238404_1_alg».proof.Proof.Gen.ReferenceIdeal.Run
import proofs.«177141_j60773787238404_1_alg».proof.Proof.KernelRun
import proofs.«177141_j60773787238404_1_alg».proof.Proof.Fold
import proofs.«177141_j60773787238404_1_alg».proof.Proof.RefStage
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the network's output of those arguments. -/
theorem algebraic : Cert.algebraic_KernelIdeal_ReferenceIdeal := by
  intro m ρ m' ρ' _ hagree
  refine ⟨fun c => Cert.KernelIdeal.Gen.W10 m ρ c (Proc.devRef .tc Cert.KernelIdeal.main_v83),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  have e := Cert.ReferenceIdeal.Staged.result_eq (F := Ideal) m' c
  obtain ⟨a0, a1, a2, a3, a4, a5, a6, a7, a8⟩ := hagree c
  rw [a0, a1, a2, a3, a4, a5, a6, a7, a8] at e
  exact e.trans (Cert.KernelIdeal.Fold.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
